-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_v28 : IVec S_ 1) (main_v33 : IVec S2x640000 1) : IVec S_ 1 :=
  let main_c_12 : IVec S_ 1 := constantI S_ 1 1#1
  let main_v34 : IVec S_ 1 := (fun x v => Host.reduce IntOp.andi x v reducesTo_S2x640000_S_d0_1 h_S_) main_v33 main_c_12
  let main_v35 : IVec S_ 1 := andi main_v28 main_v34
  main_v35

def fn_part1 {F : FTy → Type} [FloatOps F] (main_arg1 : IVec S2x640000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg1 main_v29
  let main_c_11 : IVec S_ 32 := constantI S_ 32 40000#32
  let main_v31 : IVec S2x640000 32 := broadcastInDim S2x640000 ![] bcast_S_S2x640000 main_c_11
  let main_v32 : IVec S2x640000 1 := cmpi .slt main_arg1 main_v31
  let main_v33 : IVec S2x640000 1 := andi main_v30 main_v32
  fn_part2 (F := F) main_v28 main_v33

def fn {F : FTy → Type} [FloatOps F] (main_arg0 : FVec F S40000x128 .f32) (main_arg1 : IVec S2x640000 32) (main_arg2 : FVec F S640000x128 .f32) (main_arg3 : FVec F S384x128 .f32) (main_arg4 : FVec F S128 .f32) (main_arg5 : FVec F S128x128 .f32) (main_arg6 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S5120x128 : Shape := ⟨2, ![5120, 128]⟩

abbrev nBuf : Space → Nat
  | .hbm => 64
  | .vmem => 12
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S1, .i32⟩
  | .hbm, ⟨20, _⟩ => ⟨S_, .i32⟩
  | .hbm, ⟨21, _⟩ => ⟨S640000x1, .i32⟩
  | .hbm, ⟨22, _⟩ => ⟨S640000x1, .i1⟩
  | .hbm, ⟨23, _⟩ => ⟨S1x1, .i32⟩
  | .hbm, ⟨24, _⟩ => ⟨S640000x1, .i32⟩
  | .hbm, ⟨25, _⟩ => ⟨S640000x1, .i1⟩
  | .hbm, ⟨26, _⟩ => ⟨S640000x1, .i1⟩
  | .hbm, ⟨27, _⟩ => ⟨S_, .i1⟩
  | .hbm, ⟨28, _⟩ => ⟨S640000, .i1⟩
  | .hbm, ⟨29, _⟩ => ⟨S640000x128, .f32⟩
  | .hbm, ⟨30, _⟩ => ⟨S640000x128, .i1⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x128, .bf16⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S1, .i32⟩
  | .hbm, ⟨44, _⟩ => ⟨S_, .i32⟩
  | .hbm, ⟨45, _⟩ => ⟨S640000x1, .i32⟩
  | .hbm, ⟨46, _⟩ => ⟨S640000x1, .i1⟩
  | .hbm, ⟨47, _⟩ => ⟨S1x1, .i32⟩
  | .hbm, ⟨48, _⟩ => ⟨S640000x1, .i32⟩
  | .hbm, ⟨49, _⟩ => ⟨S640000x1, .i1⟩
  | .hbm, ⟨50, _⟩ => ⟨S640000x1, .i1⟩
  | .hbm, ⟨51, _⟩ => ⟨S_, .i1⟩
  | .hbm, ⟨52, _⟩ => ⟨S640000, .i1⟩
  | .hbm, ⟨53, _⟩ => ⟨S640000x128, .f32⟩
  | .hbm, ⟨54, _⟩ => ⟨S640000x128, .i1⟩
  | .hbm, ⟨55, _⟩ => ⟨S_, .f32⟩
  | .hbm, ⟨56, _⟩ => ⟨S640000x128, .f32⟩
  | .hbm, ⟨57, _⟩ => ⟨S640000x128, .f32⟩
  | .hbm, ⟨58, _⟩ => ⟨S640000x128, .bf16⟩
  | .hbm, ⟨59, _⟩ => ⟨S384x128, .bf16⟩
  | .hbm, ⟨60, _⟩ => ⟨S128x128, .bf16⟩
  | .hbm, ⟨61, _⟩ => ⟨S1x128, .f32⟩
  | .hbm, ⟨62, _⟩ => ⟨S1x128, .f32⟩
  | .hbm, ⟨63, _⟩ => ⟨S640000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x128, .f32⟩
  | .local _ .vmem, ⟨5, _⟩ => ⟨S5120x128, .f32⟩
  | .local _ .vmem, ⟨6, _⟩ => ⟨S384x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5120x128, .f32⟩
  | .local _ .vmem, ⟨11, _⟩ => ⟨S5120x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5120x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  shapeCasts_S128_S1x128 : S128.ShapeCasts S1x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  inb_S128x128_S128x128_0_0 : ∀ a, (![0, 0] : Fin 2 → Nat) a + S128x128.size a ≤ S128x128.size a
  gather_S40000x128_S640000x1_S640000x128_1_0_n_n_0_1_1128_wf : GatherDims.WF S40000x128 S640000x1 S640000x128 [1] [0] [] [0] [] 1 ![1, 128]
  dot_S5120x128_S128x128_S5120x128_1_0_0_1_n_n_wf : DotDims.WF S5120x128 S128x128 S5120x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S640000x128.size a
  hwx0_2 : ∀ i : grid0.Coords, EltTy.bits .f32 = 32 ∨ (Rect.block (s := S640000x128) S5120x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5120x128.size a ≤ S640000x128.size a
  hwx0_7 : ∀ i : grid0.Coords, EltTy.bits .f32 = 32 ∨ (Rect.block (s := S640000x128) S5120x128.size (cc0_transform_7 i) (hinb0_7 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf

abbrev win0_0 : Pipeline.Window sig grid0 :=
  Pipeline.Window.ofSpec (Memref.whole main_v5) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5120x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S5120x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x384, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S_, .f32⟩
  | .hbm, ⟨36, _⟩ => ⟨S640000x128, .f32⟩
  | .hbm, ⟨37, _⟩ => ⟨S640000x128, .i1⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S1x128, .f32⟩
  | .hbm, ⟨44, _⟩ => ⟨S640000x128, .f32⟩
  | .hbm, ⟨45, _⟩ => ⟨S640000x128, .f32⟩
  | .hbm, ⟨46, _⟩ => ⟨S640000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S40000x128_S640000x1_S640000x128_1_0_n_n_0_1_1128_wf : GatherDims.WF S40000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.Spec.lean ====
/-
  The edge layer's result as one function of its arrays, row by row.

  For an edge e with gathered endpoint rows xs, xd and its own attribute row ea (each of 128 entries), the
  hidden unit k is

      h k = ((∑ r, xs r · Wa r k) + (∑ r, xd r · Wb r k)) + (∑ r, ea r · Wc r k) + b1 k,

  where Wa, Wb, Wc are rows 0–127, 128–255 and 256–383 of the first weight matrix. The hidden units pass through
  the leaky rectifier  a ↦ a if a ≥ 0, else c · a  (c the single-precision word nearest 1/100, the same word in both
  programs), and entry j of the output row is

      ea j + ((∑ k, act (h k) · W2 k j) + b2 j).

  Multiplying the concatenated row [xs | xd | ea] (384 entries) by the whole first weight matrix gives the same
  hidden unit: a sum over 384 positions is the sum of its three stretches of 128, which needs only that addition of
  extended reals is associative and commutative, so no entry need be finite.
-/
import Idealize.ShloMosaic.Lib.ValueIdx
import Idealize.ShloMosaic.PureOps.Ideal.Laws
import Mathlib.Algebra.BigOperators.Fin

noncomputable section

namespace Cert.Spec

open Idealize.ShloMosaic Idealize.ShloMosaic.ValueIdx

/-- A rank-2 array of extended reals. -/
abbrev Arr (a b : Nat) : Type := (⟨2, ![a, b]⟩ : Shape).Idx → EReal

/-- The leaky rectifier as both programs spell it: keep a where a ≥ 0, else the slope word times a. -/
def act (a : EReal) : EReal :=
  Scalar.select (FloatOps.cmpf (F := Ideal) (φ := .f32) .oge a (Ideal.ofBits .f32 0x00000000#32)) a
    (Ideal.ofBits .f32 0x3C23D70A#32 * a)

/-- Hidden unit k of one edge, the first product taken stretch by stretch. -/
def hidden (xs xd ea : Fin 128 → EReal) (wa wb wc : Fin 128 → Fin 128 → EReal) (b1 : Fin 128 → EReal) (k : Fin 128) : EReal :=
  (((∑ r : Fin 128, xs r * wa r k) + ∑ r : Fin 128, xd r * wb r k) + ∑ r : Fin 128, ea r * wc r k) + b1 k

/-- Entry j of one edge's output row. -/
def rowOut (xs xd ea : Fin 128 → EReal) (wa wb wc : Fin 128 → Fin 128 → EReal) (b1 : Fin 128 → EReal)
    (w2 : Fin 128 → Fin 128 → EReal) (b2 : Fin 128 → EReal) (j : Fin 128) : EReal :=
  ea j + ((∑ k : Fin 128, act (hidden xs xd ea wa wb wc b1 k) * w2 k j) + b2 j)

/-- Position r of the first, second and third stretch of 128 among 384. -/
abbrev lo (r : Fin 128) : Fin 384 := ⟨r.val, by omega⟩
abbrev mid (r : Fin 128) : Fin 384 := ⟨128 + r.val, by omega⟩
abbrev hi (r : Fin 128) : Fin 384 := ⟨256 + r.val, by omega⟩

/-- A sum over 384 positions is the sum of its three stretches of 128. -/
theorem sum_three (f : Fin 384 → EReal) :
    ∑ p : Fin 384, f p = ((∑ r : Fin 128, f (lo r)) + ∑ r : Fin 128, f (mid r)) + ∑ r : Fin 128, f (hi r) := by
  have h1 : ∑ p : Fin 384, f p = (∑ p : Fin 256, f ⟨p.val, by omega⟩) + ∑ r : Fin 128, f (hi r) := by
    have := Fin.sum_univ_add (M := EReal) (a := 256) (b := 128) f
    refine this.trans ?_
    exact congrArg₂ (· + ·) (Finset.sum_congr rfl fun p _ => congrArg f (Fin.ext rfl))
      (Finset.sum_congr rfl fun r _ => congrArg f (Fin.ext rfl))
  have h2 : (∑ p : Fin 256, f ⟨p.val, by omega⟩) = (∑ r : Fin 128, f (lo r)) + ∑ r : Fin 128, f (mid r) := by
    have := Fin.sum_univ_add (M := EReal) (a := 128) (b := 128) (fun p : Fin 256 => f ⟨p.val, by omega⟩)
    refine this.trans ?_
    exact congrArg₂ (· + ·) (Finset.sum_congr rfl fun r _ => congrArg f (Fin.ext rfl))
      (Finset.sum_congr rfl fun r _ => congrArg f (Fin.ext rfl))
  rw [h1, h2]

/-- The whole result: row e of the output from row e of the gathered endpoint arrays and of the attribute array. -/
def G (xs xd ea : Arr 640000 128) (W1 : Arr 384 128) (b1 : Fin 128 → EReal) (W2 : Arr 128 128) (b2 : Fin 128 → EReal) :
    Arr 640000 128 := fun i =>
  rowOut (fun r => xs (ix2 (⟨(i 0).val, (i 0).isLt⟩ : Fin 640000) r)) (fun r => xd (ix2 (⟨(i 0).val, (i 0).isLt⟩ : Fin 640000) r))
    (fun r => ea (ix2 (⟨(i 0).val, (i 0).isLt⟩ : Fin 640000) r))
    (fun r k => W1 (ix2 (lo r) k)) (fun r k => W1 (ix2 (mid r) k)) (fun r k => W1 (ix2 (hi r) k)) b1
    (fun k j => W2 (ix2 k j)) b2 ⟨(i 1).val, (i 1).isLt⟩

theorem G_ix2 (xs xd ea : Arr 640000 128) (W1 : Arr 384 128) (b1 : Fin 128 → EReal) (W2 : Arr 128 128) (b2 : Fin 128 → EReal)
    (e : Fin 640000) (j : Fin 128) :
    G xs xd ea W1 b1 W2 b2 (ix2 e j)
      = rowOut (fun r => xs (ix2 e r)) (fun r => xd (ix2 e r)) (fun r => ea (ix2 e r))
          (fun r k => W1 (ix2 (lo r) k)) (fun r k => W1 (ix2 (mid r) k)) (fun r k => W1 (ix2 (hi r) k)) b1
          (fun k j => W2 (ix2 k j)) b2 j := rfl

/-- The hidden unit with the first product taken over the concatenated row at once. -/
theorem hidden_of_cat (xs xd ea : Fin 128 → EReal) (W1 : Arr 384 128) (b1 : Fin 128 → EReal) (cat : Fin 384 → EReal)
    (hlo : ∀ r, cat (lo r) = xs r) (hmid : ∀ r, cat (mid r) = xd r) (hhi : ∀ r, cat (hi r) = ea r) (k : Fin 128) :
    (∑ p : Fin 384, cat p * W1 (ix2 p k)) + b1 k
      = hidden xs xd ea (fun r k => W1 (ix2 (lo r) k)) (fun r k => W1 (ix2 (mid r) k)) (fun r k => W1 (ix2 (hi r) k)) b1 k := by
  unfold hidden
  rw [sum_three]
  simp only [hlo, hmid, hhi]

end Cert.Spec

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KernelPay.lean ====
/-
  What the kernel body stores at entry (p, q) of its block.

  The body forms three matrix products of the block's gathered source rows, gathered destination rows and
  attribute rows with the three 128-row stretches of the first weight matrix, adds them and the first bias row,
  applies the leaky rectifier, multiplies by the second weight matrix, adds the second bias row and finally the
  attribute block itself. Every change of float format is the identity on extended reals, and each product into the
  zero accumulator is the plain sum over its 128 contraction positions, so entry (p, q) is the row formula of the
  specification at row p of the three blocks.
-/
import proofs.«417948_j73667279061346_2_alg».proof.Proof.Gen.KernelIdeal.Skeleton
import proofs.«417948_j73667279061346_2_alg».proof.Proof.Spec
import proofs.«417948_j73667279061346_2_alg».proof.Proof.LibPlainDot
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

variable [Cert.KernelIdeal.Facts]

/-- The 128-term product the body uses four times, at an entry. -/
theorem prod_apply {φ₁ φ₂ : FTy} (l : FVec Ideal S5120x128 φ₁) (r : FVec Ideal S128x128 φ₂) (p : Fin 5120) (q : Fin 128) :
    matmul dot_S5120x128_S128x128_S5120x128_1_0_0_1_n_n none l r (constant S5120x128 .f32 0x00000000#32) (ix2 p q)
      = ∑ k : Fin 128, l (ix2 p k) * r (ix2 k q) :=
  PlainDot.matmul_zero_apply dot_S5120x128_S128x128_S5120x128_1_0_0_1_n_n rfl rfl rfl rfl rfl rfl rfl rfl none l r p q

/-- The payload at entry (p, q): the specification's row formula at row p of the loaded blocks. -/
theorem pay_apply (v0 v2 : FVec Ideal S5120x128 .bf16) (v4 : FVec Ideal S5120x128 .f32)
    (v6 v8 v10 : FVec Ideal S128x128 .bf16) (v17 : FVec Ideal S1x128 .f32) (v27 : FVec Ideal S128x128 .bf16)
    (v30 : FVec Ideal S1x128 .f32) (p : Fin 5120) (q : Fin 128) :
    k0_pay1 (F := Ideal) v0 v2 v4 v6 v8 v10 v17 v27 v30 (ix2 p q)
      = Cert.Spec.rowOut (fun r => v0 (ix2 p r)) (fun r => v2 (ix2 p r)) (fun r => v4 (ix2 p r))
          (fun r k => v6 (ix2 r k)) (fun r k => v8 (ix2 r k)) (fun r k => v10 (ix2 r k)) (fun k => v17 (ix2 (0 : Fin 1) k))
          (fun k j => v27 (ix2 k j)) (fun j => v30 (ix2 (0 : Fin 1) j)) q := by
  unfold k0_pay1
  simp only [shapeCast_self]
  rw [addf_apply, addf_apply, prod_apply, broadcastTo_1b_ab_apply]
  unfold Cert.Spec.rowOut
  congr 1
  congr 1
  refine Finset.sum_congr rfl fun k _ => ?_
  congr 1
  rw [truncf_apply, select_apply, cmpf_apply, mulf_apply, broadcast_apply, broadcast_apply]
  rw [addf_apply, addf_apply, addf_apply, prod_apply, prod_apply, prod_apply, broadcastTo_1b_ab_apply]
  simp only [truncf_apply]
  rfl

end Cert.KernelIdeal.Pay

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.KernelEntry.lean ====
/-
  The arrays the kernel's one region finds when it is entered.

  Before the region the program slices the two rows out of the edge-index array, takes rows of the node table at
  each (the take wraps a negative index once, gathers, and fills with a not-a-number word every row whose wrapped
  index falls outside the table), narrows the two gathered arrays and the two weight matrices to the short float
  format, and lays each bias vector out as one row. Each staged array is that composite of the launch contents.
  Where every index is a natural number below the table's 40000 rows the take is the plain gather.
-/
import proofs.«417948_j73667279061346_2_alg».proof.Proof.Gen.KernelIdeal.Frame
import proofs.«417948_j73667279061346_2_alg».proof.Proof.LibTake
import Idealize.ShloMosaic.Lib.StableHlo.Run

noncomputable section

namespace Cert.KernelIdeal.Entry

open Idealize.ShloMosaic Idealize.ShloMosaic.TcCoe Idealize.SL.Sem Cert.KernelIdeal Idealize.ShloMosaic.StableHlo
open Facts₀ Facts

variable {F : FTy → Type} [FloatOps F]
variable (m : (ℓ : Loc nD τ sig) → Buf (Elt F) ℓ)

/-- Row 0 (sources) and row 1 (destinations) of the edge-index array, each as a vector of 640000 words. -/
def srcOf (ei : IVec S2x640000 32) : IVec S640000 32 :=
  shapeCast S640000 (extractStridedSlice S1x640000 ![0, 0] ei slices_S2x640000_S1x640000_0_0) shapeCasts_S1x640000_S640000
def dstOf (ei : IVec S2x640000 32) : IVec S640000 32 :=
  shapeCast S640000 (extractStridedSlice S1x640000 ![1, 0] ei slices_S2x640000_S1x640000_1_0) shapeCasts_S1x640000_S640000

/-- A negative index moved up by the node count. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 40000#32))) idx

/-- The rows of the node table at the given indices, as the take computes them. -/
def takeRows (x : FVec F S40000x128 .f32) (idx : IVec S640000 32) : FVec F S640000x128 .f32 :=
  select
    (broadcastInDim S640000x128 ![0] bcast_S640000_S640000x128_0
      (Host.reduce IntOp.andi
        (andi
          (cmpi .sge (broadcastInDim S640000x1 ![0] bcast_S640000_S640000x1_0 (wrapIdx idx))
            (broadcastInDim S640000x1 ![] bcast_S_S640000x1 (constantI S_ 32 0#32)))
          (cmpi .sle (broadcastInDim S640000x1 ![0] bcast_S640000_S640000x1_0 (wrapIdx idx))
            (broadcastInDim S640000x1 ![0, 1] bcast_S1x1_S640000x1_0_1
              (broadcastInDim S1x1 ![1] bcast_S1_S1x1_1 (constantI S1 32 39999#32)))))
        (constantI S_ 1 1#1) reducesTo_S640000x1_S640000_d1 h_S_))
    (Host.gather gather_S40000x128_S640000x1_S640000x128_1_0_n_n_0_1_1128 x
      (broadcastInDim S640000x1 ![0] bcast_S640000_S640000x1_0 (wrapIdx idx)))
    (broadcastInDim S640000x128 ![] bcast_S_S640000x128 (constant S_ .f32 0x7FC00000#32))

/-- The rows of the node table at the given indices, plainly. -/
def rowsAt (x : FVec F S40000x128 .f32) (idx : IVec S640000 32) : FVec F S640000x128 .f32 :=
  Host.gather gather_S40000x128_S640000x1_S640000x128_1_0_n_n_0_1_1128 x
    (broadcastInDim S640000x1 ![0] bcast_S640000_S640000x1_0 idx)

/-- With every index a natural number below the table's row count the take is the plain gather. -/
theorem takeRows_eq (x : FVec F S40000x128 .f32) (idx : IVec S640000 32) (h : ∀ r, (idx r).toNat < 40000) :
    takeRows x idx = rowsAt x idx :=
  Cert.LibTake.take_rows_eq (N := 40000) (by decide) idx h gather_S40000x128_S640000x1_S640000x128_1_0_n_n_0_1_1128 x _
    bcast_S_S640000 bcast_S_S640000 bcast_S640000_S640000x1_0 bcast_S_S640000x1 bcast_S1_S1x1_1 bcast_S1x1_S640000x1_0_1
    reducesTo_S640000x1_S640000_d1 h_S_ bcast_S640000_S640000x128_0

set_option maxHeartbeats 4000000 in
set_option maxRecDepth 100000 in
/-- Window 0's array: the source rows, narrowed. -/
theorem V_xs (c : Dev nD) : Gen.V m c main_v5
    = truncf .bf16 (takeRows (m ((c : Thread nD τ).loc main_arg0)) (srcOf (m ((c : Thread nD τ).loc main_arg1)))) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [TRef.toBuf, TRef.ofBuf, TRef.of, cast_eq]
  rfl

set_option maxHeartbeats 4000000 in
set_option maxRecDepth 100000 in
/-- Window 1's array: the destination rows, narrowed. -/
theorem V_xd (c : Dev nD) : Gen.V m c main_v7
    = truncf .bf16 (takeRows (m ((c : Thread nD τ).loc main_arg0)) (dstOf (m ((c : Thread nD τ).loc main_arg1)))) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [TRef.toBuf, TRef.ofBuf, TRef.of, cast_eq]
  rfl

set_option maxHeartbeats 1000000 in
/-- Window 3's array: the first weight matrix, narrowed. -/
theorem V_w1 (c : Dev nD) : Gen.V m c main_v8 = truncf .bf16 (m ((c : Thread nD τ).loc main_arg3)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

set_option maxHeartbeats 1000000 in
/-- Window 5's array: the second weight matrix, narrowed. -/
theorem V_w2 (c : Dev nD) : Gen.V m c main_v9 = truncf .bf16 (m ((c : Thread nD τ).loc main_arg5)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

set_option maxHeartbeats 1000000 in
/-- Window 4's array: the first bias vector as one row. -/
theorem V_b1 (c : Dev nD) : Gen.V m c main_v10 = shapeCast S1x128 (m ((c : Thread nD τ).loc main_arg4)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 1000000 in
/-- Window 6's array: the second bias vector as one row. -/
theorem V_b2 (c : Dev nD) : Gen.V m c main_v11 = shapeCast S1x128 (m ((c : Thread nD τ).loc main_arg6)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

end Cert.KernelIdeal.Entry

end
-- ==== Proof.KernelValue.lean ====
/-
  The kernel's result array is the specification of the arrays its region finds.

  Grid point t handles edges 5120·t … 5120·t + 5119: its three moving windows are rows of that stretch of the two
  gathered arrays and of the attribute array, its four fixed windows are the whole weight matrices and bias rows,
  and it writes back rows of the same stretch of the result. The body's payload at entry (p, q) is the
  specification's row formula at row p of the blocks, which is row 5120·t + p of the arrays; the three loads of the
  first weight matrix are its rows 0–127, 128–255 and 256–383. So what point t writes back is block t of one
  whole-array function, the 125 blocks cover all 640000 rows, and the result array after the run is that function.
  Where every edge index is a natural number below the node count the staged gathered arrays are the plain gathers.
-/
import proofs.«417948_j73667279061346_2_alg».proof.Proof.Gen.KernelIdeal.Value
import proofs.«417948_j73667279061346_2_alg».proof.Proof.KernelPay
import proofs.«417948_j73667279061346_2_alg».proof.Proof.KernelEntry
import proofs.«417948_j73667279061346_2_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The staged arrays, at their literal types -/

abbrev aXS (c : Dev nD) : FVec Ideal S640000x128 .bf16 := V m c main_v5
abbrev aXD (c : Dev nD) : FVec Ideal S640000x128 .bf16 := V m c main_v7
abbrev aEA (c : Dev nD) : FVec Ideal S640000x128 .f32 := V m c main_arg2
abbrev aW1 (c : Dev nD) : FVec Ideal S384x128 .bf16 := V m c main_v8
abbrev aB1 (c : Dev nD) : FVec Ideal S1x128 .f32 := V m c main_v10
abbrev aW2 (c : Dev nD) : FVec Ideal S128x128 .bf16 := V m c main_v9
abbrev aB2 (c : Dev nD) : FVec Ideal S1x128 .f32 := V m c main_v11

/-- The result as one function of the staged arrays. -/
def Gk (c : Dev nD) : Cert.Spec.Arr 640000 128 :=
  Cert.Spec.G (aXS m c) (aXD m c) (aEA m c) (aW1 m c) (fun k => aB1 m c (ix2 (0 : Fin 1) k)) (aW2 m c)
    (fun j => aB2 m c (ix2 (0 : Fin 1) j))

/-! ## The three loads of the first weight matrix -/

theorem ld_lo (x3 : Vec Ideal S384x128 .bf16) (r k : Fin 128) : View.ld x3 r0_1 (ix2 r k) = x3 (ix2 (Cert.Spec.lo r) k) := by
  show x3 (r0_1.emb (ix2 r k)) = x3 (ix2 (Cert.Spec.lo r) k)
  congr 1; funext a; apply Fin.ext
  match a with
  | ⟨0, _⟩ => show 0 + 1 * r.val = r.val; omega
  | ⟨1, _⟩ => show 0 + 1 * k.val = k.val; omega

theorem ld_mid (x3 : Vec Ideal S384x128 .bf16) (r k : Fin 128) : View.ld x3 r0_2 (ix2 r k) = x3 (ix2 (Cert.Spec.mid r) k) := by
  show x3 (r0_2.emb (ix2 r k)) = x3 (ix2 (Cert.Spec.mid r) k)
  congr 1; funext a; apply Fin.ext
  match a with
  | ⟨0, _⟩ => show 128 + 1 * r.val = 128 + r.val; omega
  | ⟨1, _⟩ => show 0 + 1 * k.val = k.val; omega

theorem ld_hi (x3 : Vec Ideal S384x128 .bf16) (r k : Fin 128) : View.ld x3 r0_3 (ix2 r k) = x3 (ix2 (Cert.Spec.hi r) k) := by
  show x3 (r0_3.emb (ix2 r k)) = x3 (ix2 (Cert.Spec.hi r) k)
  congr 1; funext a; apply Fin.ext
  match a with
  | ⟨0, _⟩ => show 256 + 1 * r.val = 256 + r.val; omega
  | ⟨1, _⟩ => show 0 + 1 * k.val = k.val; omega

/-! ## One block of the result -/

/-- With the three moving blocks equal to rows o … o + 5119 of three whole arrays, the payload at (p, q) is the
    specification at row o + p. -/
theorem block_eq (x0 x1 : FVec Ideal S5120x128 .bf16) (x2 : FVec Ideal S5120x128 .f32) (x3 : Vec Ideal S384x128 .bf16)
    (x4 : FVec Ideal S1x128 .f32) (x5 : FVec Ideal S128x128 .bf16) (x6 : FVec Ideal S1x128 .f32)
    (XS XD EA : Cert.Spec.Arr 640000 128) (o : Nat) (ho : o + 5120 ≤ 640000)
    (h0 : ∀ (p : Fin 5120) (r : Fin 128), x0 (ix2 p r) = XS (ix2 (⟨o + p.val, by omega⟩ : Fin 640000) r))
    (h1 : ∀ (p : Fin 5120) (r : Fin 128), x1 (ix2 p r) = XD (ix2 (⟨o + p.val, by omega⟩ : Fin 640000) r))
    (h2 : ∀ (p : Fin 5120) (r : Fin 128), x2 (ix2 p r) = EA (ix2 (⟨o + p.val, by omega⟩ : Fin 640000) r))
    (p : Fin 5120) (q : Fin 128) :
    k0_pay1 (F := Ideal) x0 x1 x2 (View.ld x3 r0_1) (View.ld x3 r0_2) (View.ld x3 r0_3) x4 x5 x6 (ix2 p q)
      = Cert.Spec.G XS XD EA x3 (fun k => x4 (ix2 (0 : Fin 1) k)) x5 (fun j => x6 (ix2 (0 : Fin 1) j))
          (ix2 (⟨o + p.val, by omega⟩ : Fin 640000) q) := by
  rw [Cert.KernelIdeal.Pay.pay_apply, Cert.Spec.G_ix2]
  have e1 : (fun r k => View.ld x3 r0_1 (ix2 r k)) = fun r k => x3 (ix2 (Cert.Spec.lo r) k) :=
    funext fun r => funext fun k => ld_lo x3 r k
  have e2 : (fun r k => View.ld x3 r0_2 (ix2 r k)) = fun r k => x3 (ix2 (Cert.Spec.mid r) k) :=
    funext fun r => funext fun k => ld_mid x3 r k
  have e3 : (fun r k => View.ld x3 r0_3 (ix2 r k)) = fun r k => x3 (ix2 (Cert.Spec.hi r) k) :=
    funext fun r => funext fun k => ld_hi x3 r k
  rw [e1, e2, e3]
  simp only [h0, h1, h2]

/-! ## The windows' blocks as rows of the staged arrays -/

/-- The printed index maps over the grid: the moving windows sit at block row t, the fixed ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val * 5120 + 5120 ≤ 640000 := by
  have h := t.isLt
  have hN : cfg0.N = 125 := N_0
  omega

/-- Where block t of the first moving window sits in its array: entry (p, r) of the block is entry (5120·t + p, r). -/
theorem emb0 (t : Fin cfg0.N) (p : Fin 5120) (r : Fin 128) :
    ((cfg0.win 0).blk t).view.emb (ix2 p r) = ix2 (⟨t.val * 5120 + p.val, by have := t_lt t; omega⟩ : Fin 640000) r := by
  obtain ⟨e0, e1, -⟩ := idx_facts t
  funext a; apply Fin.ext
  match a with
  | ⟨0, _⟩ => show win0_0.index t (0 : Fin 2) * 5120 + 1 * p.val = t.val * 5120 + p.val; rw [e0]; omega
  | ⟨1, _⟩ => show win0_0.index t (1 : Fin 2) * 128 + 1 * r.val = r.val; rw [e1]; omega

/-- The same for the second moving window. -/
theorem emb1 (t : Fin cfg0.N) (p : Fin 5120) (r : Fin 128) :
    ((cfg0.win 1).blk t).view.emb (ix2 p r) = ix2 (⟨t.val * 5120 + p.val, by have := t_lt t; omega⟩ : Fin 640000) r := by
  obtain ⟨-, -, e0, e1, -⟩ := idx_facts t
  funext a; apply Fin.ext
  match a with
  | ⟨0, _⟩ => show win0_1.index t (0 : Fin 2) * 5120 + 1 * p.val = t.val * 5120 + p.val; rw [e0]; omega
  | ⟨1, _⟩ => show win0_1.index t (1 : Fin 2) * 128 + 1 * r.val = r.val; rw [e1]; omega

/-- The same for the third moving window. -/
theorem emb2 (t : Fin cfg0.N) (p : Fin 5120) (r : Fin 128) :
    ((cfg0.win 2).blk t).view.emb (ix2 p r) = ix2 (⟨t.val * 5120 + p.val, by have := t_lt t; omega⟩ : Fin 640000) r := by
  obtain ⟨-, -, -, -, e0, e1, -⟩ := idx_facts t
  funext a; apply Fin.ext
  match a with
  | ⟨0, _⟩ => show win0_2.index t (0 : Fin 2) * 5120 + 1 * p.val = t.val * 5120 + p.val; rw [e0]; omega
  | ⟨1, _⟩ => show win0_2.index t (1 : Fin 2) * 128 + 1 * r.val = r.val; rw [e1]; omega

/-- The one block of each fixed window is its whole array: an index of the block is the same index of the array. -/
theorem emb3 (t : Fin cfg0.N) (y : S384x128.Idx) : ((cfg0.win 3).blk t).view.emb y = y := by
  obtain ⟨-, -, -, -, -, -, e0, e1, -⟩ := idx_facts t
  funext a; apply Fin.ext
  match a with
  | ⟨0, _⟩ => show win0_3.index t (0 : Fin 2) * 384 + 1 * (y 0).val = (y 0).val; rw [e0]; omega
  | ⟨1, _⟩ => show win0_3.index t (1 : Fin 2) * 128 + 1 * (y 1).val = (y 1).val; rw [e1]; omega

theorem emb4 (t : Fin cfg0.N) (y : S1x128.Idx) : ((cfg0.win 4).blk t).view.emb y = y := by
  obtain ⟨-, -, -, -, -, -, -, -, e0, e1, -⟩ := idx_facts t
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem emb5 (t : Fin cfg0.N) (y : S128x128.Idx) : ((cfg0.win 5).blk t).view.emb y = y := by
  obtain ⟨-, -, -, -, -, -, -, -, -, -, e0, e1, -⟩ := idx_facts t
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem emb6 (t : Fin cfg0.N) (y : S1x128.Idx) : ((cfg0.win 6).blk t).view.emb y = y := by
  obtain ⟨-, -, -, -, -, -, -, -, -, -, -, -, e0, e1, -⟩ := idx_facts t
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-! A window's block read off ANY array is the array at the embedded index; stated for an arbitrary array, so that
    nothing about how a staged array was computed is opened. -/

theorem read0 (t : Fin cfg0.N) (A : S640000x128.Idx → Ideal .bf16) (p : Fin 5120) (r : Fin 128) :
    ((cfg0.win 0).blk t).view.read (Elt Ideal) A (ix2 p r)
      = A (ix2 (⟨t.val * 5120 + p.val, by have := t_lt t; omega⟩ : Fin 640000) r) := by
  rw [View.read_apply]
  exact congrArg A (emb0 t p r)

theorem read1 (t : Fin cfg0.N) (A : S640000x128.Idx → Ideal .bf16) (p : Fin 5120) (r : Fin 128) :
    ((cfg0.win 1).blk t).view.read (Elt Ideal) A (ix2 p r)
      = A (ix2 (⟨t.val * 5120 + p.val, by have := t_lt t; omega⟩ : Fin 640000) r) := by
  rw [View.read_apply]
  exact congrArg A (emb1 t p r)

theorem read2 (t : Fin cfg0.N) (A : S640000x128.Idx → Ideal .f32) (p : Fin 5120) (r : Fin 128) :
    ((cfg0.win 2).blk t).view.read (Elt Ideal) A (ix2 p r)
      = A (ix2 (⟨t.val * 5120 + p.val, by have := t_lt t; omega⟩ : Fin 640000) r) := by
  rw [View.read_apply]
  exact congrArg A (emb2 t p r)

theorem read3 (t : Fin cfg0.N) (A : S384x128.Idx → Ideal .bf16) : ((cfg0.win 3).blk t).view.read (Elt Ideal) A = A := by
  funext y; rw [View.read_apply]; exact congrArg A (emb3 t y)

theorem read4 (t : Fin cfg0.N) (A : S1x128.Idx → Ideal .f32) : ((cfg0.win 4).blk t).view.read (Elt Ideal) A = A := by
  funext y; rw [View.read_apply]; exact congrArg A (emb4 t y)

theorem read5 (t : Fin cfg0.N) (A : S128x128.Idx → Ideal .bf16) : ((cfg0.win 5).blk t).view.read (Elt Ideal) A = A := by
  funext y; rw [View.read_apply]; exact congrArg A (emb5 t y)

theorem read6 (t : Fin cfg0.N) (A : S1x128.Idx → Ideal .f32) : ((cfg0.win 6).blk t).view.read (Elt Ideal) A = A := by
  funext y; rw [View.read_apply]; exact congrArg A (emb6 t y)

/-! The seven input blocks at point t, from the staged arrays. -/

theorem iblk0 (c : Dev nD) (t : Fin cfg0.N) (p : Fin 5120) (r : Fin 128) :
    (iblk m c 0 t : Vec Ideal S5120x128 .bf16) (ix2 p r)
      = aXS m c (ix2 (⟨t.val * 5120 + p.val, by have := t_lt t; omega⟩ : Fin 640000) r) :=
  read0 t (aXS m c) p r

theorem iblk1 (c : Dev nD) (t : Fin cfg0.N) (p : Fin 5120) (r : Fin 128) :
    (iblk m c 1 t : Vec Ideal S5120x128 .bf16) (ix2 p r)
      = aXD m c (ix2 (⟨t.val * 5120 + p.val, by have := t_lt t; omega⟩ : Fin 640000) r) :=
  read1 t (aXD m c) p r

theorem iblk2 (c : Dev nD) (t : Fin cfg0.N) (p : Fin 5120) (r : Fin 128) :
    (iblk m c 2 t : Vec Ideal S5120x128 .f32) (ix2 p r)
      = aEA m c (ix2 (⟨t.val * 5120 + p.val, by have := t_lt t; omega⟩ : Fin 640000) r) :=
  read2 t (aEA m c) p r

theorem iblk3 (c : Dev nD) (t : Fin cfg0.N) : (iblk m c 3 t : Vec Ideal S384x128 .bf16) = aW1 m c := read3 t (aW1 m c)
theorem iblk4 (c : Dev nD) (t : Fin cfg0.N) : (iblk m c 4 t : Vec Ideal S1x128 .f32) = aB1 m c := read4 t (aB1 m c)
theorem iblk5 (c : Dev nD) (t : Fin cfg0.N) : (iblk m c 5 t : Vec Ideal S128x128 .bf16) = aW2 m c := read5 t (aW2 m c)
theorem iblk6 (c : Dev nD) (t : Fin cfg0.N) : (iblk m c 6 t : Vec Ideal S1x128 .f32) = aB2 m c := read6 t (aB2 m c)

/-! ## What a point writes back, the cover, the final array -/

/-- What point t writes back is block t of the whole-array function. -/
theorem flushed_eq (c : Dev nD) (t : Fin cfg0.N) :
    (dats m 0 c).flushed 7 t = ((cfg0.win 7).blk t).view.read (Elt Ideal) (Gk m c) := by
  rw [Cert.KernelIdeal.Value.flushed7]
  unfold out0_7
  rw [View.canon_unit_zero hz]
  simp only [View.ld_unit_zero (S := S5120x128) hz, View.ld_unit_zero (S := S1x128) hz, View.ld_unit_zero (S := S128x128) hz]
  obtain ⟨-, -, -, -, -, -, -, -, -, -, -, -, -, -, e0, e1⟩ := idx_facts t
  funext j
  obtain ⟨p, q, rfl⟩ : ∃ (p : Fin 5120) (q : Fin 128), j = ix2 p q := ⟨j 0, j 1, eq_ix2 j⟩
  have e7 : ((cfg0.win 7).blk t).view.emb (ix2 p q)
      = ix2 (⟨t.val * 5120 + p.val, by have := t_lt t; omega⟩ : Fin 640000) q := by
    funext a; apply Fin.ext
    match a with
    | ⟨0, _⟩ => show win0_7.index t (0 : Fin 2) * 5120 + 1 * p.val = t.val * 5120 + p.val; rw [e0]; omega
    | ⟨1, _⟩ => show win0_7.index t (1 : Fin 2) * 128 + 1 * q.val = q.val; rw [e1]; omega
  show k0_pay1 (F := Ideal) (iblk m c 0 t) (iblk m c 1 t) (iblk m c 2 t) (View.ld (iblk m c 3 t) r0_1)
      (View.ld (iblk m c 3 t) r0_2) (View.ld (iblk m c 3 t) r0_3) (iblk m c 4 t) (iblk m c 5 t) (iblk m c 6 t) (ix2 p q)
    = Gk m c (((cfg0.win 7).blk t).view.emb (ix2 p q))
  rw [e7, iblk3 m c t, iblk4 m c t, iblk5 m c t, iblk6 m c t]
  exact block_eq (iblk m c 0 t) (iblk m c 1 t) (iblk m c 2 t) (aW1 m c) (aB1 m c) (aW2 m c) (aB2 m c)
    (aXS m c) (aXD m c) (aEA m c) (t.val * 5120) (t_lt t) (iblk0 m c t) (iblk1 m c t) (iblk2 m c t) p q

/-- An index of the result array is in point t's block iff each coordinate is in the block's range. -/
theorem mem_blk (t : Fin cfg0.N) (i : S640000x128.Idx) :
    i ∈ ((cfg0.win 7).blk t).view.set ↔ ∀ a : Fin 2, win0_7.index t a * S5120x128.size a ≤ (i a).val
      ∧ (i a).val < win0_7.index t a * S5120x128.size a + S5120x128.size a := by
  show i ∈ ((View.whole main_v12).slice (win0_7.rect t)).set ↔ _
  rw [View.set_slice_whole, Rect.mem_set_unit]
  exact Iff.rfl

/-- Every index of the result array lies in the block of the point that handles its row. -/
theorem cover (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have hN : cfg0.N = 125 := N_0
  have ht : (i 0).val / 5120 < cfg0.N := by omega
  obtain ⟨-, -, -, -, -, -, -, -, -, -, -, -, -, -, e0, e1⟩ := idx_facts ⟨(i 0).val / 5120, ht⟩
  refine ⟨⟨(i 0).val / 5120, ht⟩, flush0_7 _, ?_⟩
  rw [mem_blk]
  intro a
  match a with
  | ⟨0, _⟩ =>
    show win0_7.index ⟨(i 0).val / 5120, ht⟩ (0 : Fin 2) * 5120 ≤ (i 0).val
      ∧ (i 0).val < win0_7.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win0_7.index ⟨(i 0).val / 5120, ht⟩ (1 : Fin 2) * 128 ≤ (i 1).val
      ∧ (i 1).val < win0_7.index ⟨(i 0).val / 5120, ht⟩ (1 : Fin 2) * 128 + 128
    rw [e1]; omega

/-- The result array after the run is the whole-array function of the staged arrays. -/
theorem final (c : Dev nD) : (dats m 0 c).arrAt 7 cfg0.N = Gk m c :=
  (dats m 0 c).arrAt_eq_of_cover 7 (Gk m c) (fun t _ => flushed_eq m c t) cover

/-! ## The staged arrays from the arguments -/

/-- With every edge index a natural number below the node count, the whole-array function of the staged arrays is
    the specification of the plain gathers, the arguments' weights and biases. -/
theorem Gk_eq (c : Dev nD) (h : ∀ i, ((m ((c : Thread nD τ).loc main_arg1) : IVec S2x640000 32) i).toNat < 40000) :
    Gk m c = Cert.Spec.G
      (Cert.KernelIdeal.Entry.rowsAt (F := Ideal) (m ((c : Thread nD τ).loc main_arg0)) (Cert.KernelIdeal.Entry.srcOf (m ((c : Thread nD τ).loc main_arg1))))
      (Cert.KernelIdeal.Entry.rowsAt (F := Ideal) (m ((c : Thread nD τ).loc main_arg0)) (Cert.KernelIdeal.Entry.dstOf (m ((c : Thread nD τ).loc main_arg1))))
      (m ((c : Thread nD τ).loc main_arg2)) (m ((c : Thread nD τ).loc main_arg3))
      (fun k => (m ((c : Thread nD τ).loc main_arg4) : FVec Ideal S128 .f32) (ix1 k))
      (m ((c : Thread nD τ).loc main_arg5))
      (fun j => (m ((c : Thread nD τ).loc main_arg6) : FVec Ideal S128 .f32) (ix1 j)) := by
  have hs : ∀ r, (Cert.KernelIdeal.Entry.srcOf (m ((c : Thread nD τ).loc main_arg1)) r).toNat < 40000 := fun r => by
    obtain ⟨k, hk⟩ : ∃ k, Cert.KernelIdeal.Entry.srcOf (m ((c : Thread nD τ).loc main_arg1)) r = (m ((c : Thread nD τ).loc main_arg1) : IVec S2x640000 32) k := ⟨_, rfl⟩
    rw [hk]; exact h k
  have hd : ∀ r, (Cert.KernelIdeal.Entry.dstOf (m ((c : Thread nD τ).loc main_arg1)) r).toNat < 40000 := fun r => by
    obtain ⟨k, hk⟩ : ∃ k, Cert.KernelIdeal.Entry.dstOf (m ((c : Thread nD τ).loc main_arg1)) r = (m ((c : Thread nD τ).loc main_arg1) : IVec S2x640000 32) k := ⟨_, rfl⟩
    rw [hk]; exact h k
  unfold Gk aXS aXD aEA aW1 aB1 aW2 aB2
  rw [Cert.KernelIdeal.Entry.V_xs m c, Cert.KernelIdeal.Entry.V_xd m c, V_main_arg2 m c, Cert.KernelIdeal.Entry.V_w1 m c,
    Cert.KernelIdeal.Entry.V_b1 m c, Cert.KernelIdeal.Entry.V_w2 m c, Cert.KernelIdeal.Entry.V_b2 m c,
    Cert.KernelIdeal.Entry.takeRows_eq _ _ hs, Cert.KernelIdeal.Entry.takeRows_eq _ _ hd]
  simp only [shapeCast_a_1a_apply]
  rfl

/-- The kernel's run, read: the result array at the specification, the arguments unchanged. -/
theorem run (hidx : ∀ c : Dev nD, ∀ i, ((m ((c : Thread nD τ).loc main_arg1) : IVec S2x640000 32) i).toNat < 40000) :
    θ_run defs (onTc (τ := τ) (main (F := Ideal))) ⟨m, fun _ => 0, ρ⟩ fun r => ∀ c : Dev nD,
      r.2.mem ((c : Thread nD τ).loc main_v12) = Cert.Spec.G
          (Cert.KernelIdeal.Entry.rowsAt (F := Ideal) (m ((c : Thread nD τ).loc main_arg0)) (Cert.KernelIdeal.Entry.srcOf (m ((c : Thread nD τ).loc main_arg1))))
          (Cert.KernelIdeal.Entry.rowsAt (F := Ideal) (m ((c : Thread nD τ).loc main_arg0)) (Cert.KernelIdeal.Entry.dstOf (m ((c : Thread nD τ).loc main_arg1))))
          (m ((c : Thread nD τ).loc main_arg2)) (m ((c : Thread nD τ).loc main_arg3))
          (fun k => (m ((c : Thread nD τ).loc main_arg4) : FVec Ideal S128 .f32) (ix1 k))
          (m ((c : Thread nD τ).loc main_arg5))
          (fun j => (m ((c : Thread nD τ).loc main_arg6) : FVec Ideal S128 .f32) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final m c)).trans (Gk_eq m c (hidx c)), (h c).2⟩)
    (Cert.KernelIdeal.Value.run_blocks m ρ)

end Cert.KernelIdeal.Hand

end
-- ==== Proof.RefRun.lean ====
/-
  The reference program's run.

  The reference is a straight line of forty host operations once its two outlined helpers (the leaky rectifier and
  the select inside it) are read at their call sites: two rows sliced out of the edge-index array, each wrapped
  (a negative index moved up by the node count) and used to gather rows of the node table; the two gathered arrays
  and the attribute array laid side by side; the first linear layer, the rectifier, the second linear layer, and
  the residual sum. Every weakly fair execution therefore terminates with each buffer at the fold of the
  operations over the launch contents.
-/
import proofs.«417948_j73667279061346_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The forty operations, in order, the helpers' operations at their call sites over the call's own buffers. -/
abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 40000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v3 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 40000#32),
    unary main_c_2 main_v13 (broadcastInDim S640000 ![] bcast_S_S640000 : (⟨S_, .i32⟩ : BufTy).Contents (Elt F) → (⟨S640000, .i32⟩ : BufTy).Contents (Elt F)),
    binary main_v3 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nary ![main_v10, main_v17, main_arg2] main_v18 (fun u => concatenate S640000x384 1 [⟨S640000x128, u 0⟩, ⟨S640000x128, u 1⟩, ⟨S640000x128, u 2⟩] concatenates_S640000x128_S640000x128_S640000x128_S640000x384_d1),
    binary main_v18 main_arg3 main_v19 ((fun l r => Host.dotGeneral dot_S640000x384_S384x128_S640000x128_1_0_0_1_n_n none l r) : (⟨S640000x384, .f32⟩ : BufTy).Contents (Elt F) → (⟨S384x128, .f32⟩ : BufTy).Contents (Elt F) → (⟨S640000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S640000x128 ![0, 1] bcast_S1x128_S640000x128_0_1 : (⟨S1x128, .f32⟩ : BufTy).Contents (Elt F) → (⟨S640000x128, .f32⟩ : BufTy).Contents (Elt F)),
    binary main_v19 main_v21 main_v22 (addf : (⟨S640000x128, .f32⟩ : BufTy).Contents (Elt F) → (⟨S640000x128, .f32⟩ : BufTy).Contents (Elt F) → (⟨S640000x128, .f32⟩ : BufTy).Contents (Elt F)),
    nullary main_cst (constant S_ .f32 0x3C23D70A#32),
    TRef.nullary main_call0.cst (constant S_ .f32 0x00000000#32),
    TRef.unary main_call0.cst main_call0.v0 (broadcastInDim S640000x128 ![] bcast_S_S640000x128),
    TRef.binary (.of main_v22) main_call0.v0 main_call0.v1 (cmpf .oge),
    TRef.unary (.of main_cst) main_call0.v2 id,
    TRef.unary main_call0.v2 main_call0.v3 (broadcastInDim S640000x128 ![] bcast_S_S640000x128),
    TRef.binary main_call0.v3 (.of main_v22) main_call0.v4 mulf,
    TRef.ternary main_call0.v1 (.of main_v22) main_call0.v4 main_call0.call0.v0 select,
    binary main_v23 main_arg5 main_v24 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S640000x128 ![0, 1] bcast_S1x128_S640000x128_0_1 : (⟨S1x128, .f32⟩ : BufTy).Contents (Elt F) → (⟨S640000x128, .f32⟩ : BufTy).Contents (Elt F)),
    binary main_v24 main_v26 main_v27 (addf : (⟨S640000x128, .f32⟩ : BufTy).Contents (Elt F) → (⟨S640000x128, .f32⟩ : BufTy).Contents (Elt F) → (⟨S640000x128, .f32⟩ : BufTy).Contents (Elt F)),
    binary main_arg2 main_v27 main_v28 (addf : (⟨S640000x128, .f32⟩ : BufTy).Contents (Elt F) → (⟨S640000x128, .f32⟩ : BufTy).Contents (Elt F) → (⟨S640000x128, .f32⟩ : BufTy).Contents (Elt F)) ]

set_option maxRecDepth 2048 in
/-- The printed program is that straight line: the helpers' bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub .., binary_bufs_sub ..⟩

/-- Every weakly fair execution of the reference terminates with each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibNary3.lean ====
/-
  A host operation over a literal family of three buffers: its result with each operand read at its own buffer.

  An operation that reads a family of buffers (a concatenation of several arrays) leaves in its result buffer its
  function of the family's contents. For a literal family of three the contents can be written operand by operand,
  so that whatever is known of each operand's buffer can be rewritten in place.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the three buffers x, a, b: its function of the three contents in order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result buffer kept out of the rewriting index, for use in one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.RefOut.lean ====
/-
  The reference's result as one composite of its arguments.

  Read off the forty-operation line: the two index rows, each wrapped and used to gather node rows; the gathered
  arrays and the attribute array side by side; the first linear layer; the leaky rectifier; the second linear layer;
  the residual sum. The fold of the operations at the result buffer is this composite of the launch contents, and no
  operation writes an argument.
-/
import proofs.«417948_j73667279061346_2_alg».proof.Proof.RefRun
import proofs.«417948_j73667279061346_2_alg».proof.Proof.LibNary3

noncomputable section

namespace Cert.ReferenceIdeal.RefOut

open Cert.ReferenceIdeal Idealize.ShloMosaic Idealize.ShloMosaic.TcCoe Idealize.SL.Sem Idealize.ShloMosaic.StableHlo
open Facts₀ Facts

variable {F : FTy → Type} [FloatOps F]

/-- Row 0 (sources) and row 1 (destinations) of the edge-index array, each as a vector of 640000 words. -/
def srcOf (ei : IVec S2x640000 32) : IVec S640000 32 :=
  shapeCast S640000 (extractStridedSlice S1x640000 ![0, 0] ei slices_S2x640000_S1x640000_0_0) shapeCasts_S1x640000_S640000
def dstOf (ei : IVec S2x640000 32) : IVec S640000 32 :=
  shapeCast S640000 (extractStridedSlice S1x640000 ![1, 0] ei slices_S2x640000_S1x640000_1_0) shapeCasts_S1x640000_S640000

/-- A negative index moved up by the node count. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 40000#32))) idx

/-- The rows of the node table at the given indices. -/
def rowsAt (x : FVec F S40000x128 .f32) (idx : IVec S640000 32) : FVec F S640000x128 .f32 :=
  Host.gather gather_S40000x128_S640000x1_S640000x128_1_0_n_n_0_1_1128 x
    (broadcastInDim S640000x1 ![0] bcast_S640000_S640000x1_0 idx)

/-- The three arrays side by side: 384 columns. -/
def catArr (xs xd ea : FVec F S640000x128 .f32) : FVec F S640000x384 .f32 :=
  concatenate S640000x384 1 [⟨S640000x128, xs⟩, ⟨S640000x128, xd⟩, ⟨S640000x128, ea⟩]
    concatenates_S640000x128_S640000x128_S640000x128_S640000x384_d1

/-- A bias vector laid along every row. -/
def biasArr (b : FVec F S128 .f32) : FVec F S640000x128 .f32 :=
  broadcastInDim S640000x128 ![0, 1] bcast_S1x128_S640000x128_0_1 (broadcastInDim S1x128 ![1] bcast_S128_S1x128_1 b)

/-- The first linear layer. -/
def hiddenArr (xs xd ea : FVec F S640000x128 .f32) (W1 : FVec F S384x128 .f32) (b1 : FVec F S128 .f32) : FVec F S640000x128 .f32 :=
  addf (Host.dotGeneral dot_S640000x384_S384x128_S640000x128_1_0_0_1_n_n none (catArr xs xd ea) W1) (biasArr b1)

/-- The leaky rectifier, entry by entry. -/
def actArr (h : FVec F S640000x128 .f32) : FVec F S640000x128 .f32 :=
  select (cmpf .oge h (broadcastInDim S640000x128 ![] bcast_S_S640000x128 (constant S_ .f32 0x00000000#32))) h
    (mulf (broadcastInDim S640000x128 ![] bcast_S_S640000x128 (id (constant S_ .f32 0x3C23D70A#32))) h)

/-- The second linear layer and the residual sum. -/
def outArr (ea a : FVec F S640000x128 .f32) (W2 : FVec F S128x128 .f32) (b2 : FVec F S128 .f32) : FVec F S640000x128 .f32 :=
  addf ea (addf (Host.dotGeneral dot_S640000x128_S128x128_S640000x128_1_0_0_1_n_n none a W2) (biasArr b2))

/-- The reference's result. -/
def out (x : FVec F S40000x128 .f32) (ei : IVec S2x640000 32) (ea : FVec F S640000x128 .f32) (W1 : FVec F S384x128 .f32)
    (b1 : FVec F S128 .f32) (W2 : FVec F S128x128 .f32) (b2 : FVec F S128 .f32) : FVec F S640000x128 .f32 :=
  outArr ea (actArr (hiddenArr (rowsAt x (wrapIdx (srcOf ei))) (rowsAt x (wrapIdx (dstOf ei))) ea W1 b1)) W2 b2

set_option maxHeartbeats 4000000 in
set_option maxRecDepth 100000 in
/-- The fold at the result buffer is the composite of the launch contents. -/
theorem out_eq (V : Valuation τ sig (Elt F)) :
    after RefRun.ops V (main_v28 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp (disch := decide) only [after_cons, after_nil, nullary_result', unary_result', binary_result', ternary_result',
    reshape_result', Cert.LibNary3.nary3_result', nullary_result_ne', unary_result_ne', binary_result_ne', ternary_result_ne',
    reshape_result_ne', nary_result_ne']
  simp only [TRef.toBuf, TRef.ofBuf, TRef.of, cast_eq]
  rfl

set_option maxHeartbeats 1000000 in
/-- No operation writes an argument. -/
theorem kept (V : Valuation τ sig (Elt F)) :
    after RefRun.ops V (main_arg0 : DevRef τ sig) = V (main_arg0 : DevRef τ sig)
    ∧ after RefRun.ops V (main_arg1 : DevRef τ sig) = V (main_arg1 : DevRef τ sig)
    ∧ after RefRun.ops V (main_arg2 : DevRef τ sig) = V (main_arg2 : DevRef τ sig)
    ∧ after RefRun.ops V (main_arg3 : DevRef τ sig) = V (main_arg3 : DevRef τ sig)
    ∧ after RefRun.ops V (main_arg4 : DevRef τ sig) = V (main_arg4 : DevRef τ sig)
    ∧ after RefRun.ops V (main_arg5 : DevRef τ sig) = V (main_arg5 : DevRef τ sig)
    ∧ after RefRun.ops V (main_arg6 : DevRef τ sig) = V (main_arg6 : DevRef τ sig) := by
  refine ⟨?_, ?_, ?_, ?_, ?_, ?_, ?_⟩ <;>
    simp (disch := decide) only [after_cons, after_nil, nullary_result_ne', unary_result_ne', binary_result_ne',
      ternary_result_ne', reshape_result_ne', nary_result_ne']

/-- Every weakly fair execution of the reference terminates with its result at the composite of its arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v28).trans (out_eq (launchContents m c)),
        (h c main_arg0).trans (kept (launchContents m c)).1,
        (h c main_arg1).trans (kept (launchContents m c)).2.1,
        (h c main_arg2).trans (kept (launchContents m c)).2.2.1,
        (h c main_arg3).trans (kept (launchContents m c)).2.2.2.1,
        (h c main_arg4).trans (kept (launchContents m c)).2.2.2.2.1,
        (h c main_arg5).trans (kept (launchContents m c)).2.2.2.2.2.1,
        (h c main_arg6).trans (kept (launchContents m c)).2.2.2.2.2.2⟩)
    (RefRun.run_main m ρ)

end Cert.ReferenceIdeal.RefOut

end
-- ==== Proof.LibHostDot.lean ====
/-
  A plain host matrix product read at an entry.

  For dimension numbers that contract the left operand's axis 1 with the right operand's axis 0, keep the left
  operand's axis 0 and the right operand's axis 1 and have no batch axes, jnp's dot_general at the ideal values and at
  entry (p, q) is the textbook sum  ∑ k, l (p, k) · r (k, q)  over the extended reals: the operand indices at that
  entry and contraction position k are (p, k) and (k, q).
-/
import proofs.«417948_j73667279061346_2_alg».proof.Proof.LibPlainDot

noncomputable section

namespace Cert.LibHostDot

open Idealize.ShloMosaic Idealize.ShloMosaic.ValueIdx Idealize.ShloMosaic.PlainDot

variable {M K N : Nat} (d : DotDims ⟨2, ![M, K]⟩ ⟨2, ![K, N]⟩ ⟨2, ![M, N]⟩)

/-- The host product of such a record at entry (p, q). -/
theorem dot_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

end Cert.LibHostDot

end
-- ==== Proof.RefValue.lean ====
/-
  The reference's result, entry by entry, is the specification.

  At the ideal values the host's matrix product is the plain sum over its contraction positions. The concatenated
  row of an edge has its gathered source row in positions 0–127, its gathered destination row in 128–255 and its
  attribute row in 256–383, so the first layer's 384-term sum is the three 128-term sums of the specification; a bias
  vector laid along every row reads at (e, j) its entry j; the rectifier acts entry by entry. Where every index is a
  natural number below the node count, wrapping a negative index changes nothing, and the gathered arrays are the
  plain gathers at the two index rows.
-/
import proofs.«417948_j73667279061346_2_alg».proof.Proof.RefOut
import proofs.«417948_j73667279061346_2_alg».proof.Proof.LibHostDot
import proofs.«417948_j73667279061346_2_alg».proof.Proof.Spec
import proofs.«417948_j73667279061346_2_alg».proof.Proof.LibTake
import Idealize.ShloMosaic.Lib.Pipeline.Value
import Idealize.ShloMosaic.Lib.IdealHost

noncomputable section

namespace Cert.ReferenceIdeal.RefValue

open Cert.ReferenceIdeal Cert.ReferenceIdeal.RefOut Idealize.ShloMosaic Idealize.ShloMosaic.ValueIdx
open Facts₀ Facts

/-- A bias vector laid along every row reads, at (e, j), its entry j. -/
theorem bias_apply (b : FVec Ideal S128 .f32) (e : Fin 640000) (j : Fin 128) : biasArr b (ix2 e j) = b (ix1 j) := by
  unfold biasArr
  rw [broadcastInDim_apply ![0, 1] bcast_S1x128_S640000x128_0_1 _ (ix2 e j) (ix2 (0 : Fin 1) j) (fun a => by
      match a with
      | ⟨0, _⟩ => rfl
      | ⟨1, _⟩ => rfl),
    broadcastInDim_apply ![1] bcast_S128_S1x128_1 b (ix2 (0 : Fin 1) j) (ix1 j) (fun a => by
      match a with
      | ⟨0, _⟩ => rfl)]

/-- The concatenated row: its first, second and third stretch of 128. -/
theorem cat_lo (xs xd ea : FVec Ideal S640000x128 .f32) (e : Fin 640000) (r : Fin 128) :
    catArr xs xd ea (ix2 e (Cert.Spec.lo r)) = xs (ix2 e r) := by
  unfold catArr
  exact concatenate_apply_piece (t := S640000x384) (1 : Fin 2) ([⟨S640000x128, xs⟩, ⟨S640000x128, xd⟩, ⟨S640000x128, ea⟩] : List ((s : Shape) × (s.Idx → Ideal .f32))) concatenates_S640000x128_S640000x128_S640000x128_S640000x384_d1 (ix2 e (Cert.Spec.lo r)) 0 (by show (0 : Nat) < 3; omega) S640000x128 xs rfl rfl 0 rfl (ix2 e r)
    (fun b hb => by match b with | ⟨0, _⟩ => rfl | ⟨1, _⟩ => exact absurd rfl hb) (by show 0 + r.val = r.val; omega)

theorem cat_mid (xs xd ea : FVec Ideal S640000x128 .f32) (e : Fin 640000) (r : Fin 128) :
    catArr xs xd ea (ix2 e (Cert.Spec.mid r)) = xd (ix2 e r) := by
  unfold catArr
  exact concatenate_apply_piece (t := S640000x384) (1 : Fin 2) ([⟨S640000x128, xs⟩, ⟨S640000x128, xd⟩, ⟨S640000x128, ea⟩] : List ((s : Shape) × (s.Idx → Ideal .f32))) concatenates_S640000x128_S640000x128_S640000x128_S640000x384_d1 (ix2 e (Cert.Spec.mid r)) 1 (by show (1 : Nat) < 3; omega) S640000x128 xd rfl rfl 128 rfl (ix2 e r)
    (fun b hb => by match b with | ⟨0, _⟩ => rfl | ⟨1, _⟩ => exact absurd rfl hb) (by show 128 + r.val = 128 + r.val; rfl)

theorem cat_hi (xs xd ea : FVec Ideal S640000x128 .f32) (e : Fin 640000) (r : Fin 128) :
    catArr xs xd ea (ix2 e (Cert.Spec.hi r)) = ea (ix2 e r) := by
  unfold catArr
  exact concatenate_apply_piece (t := S640000x384) (1 : Fin 2) ([⟨S640000x128, xs⟩, ⟨S640000x128, xd⟩, ⟨S640000x128, ea⟩] : List ((s : Shape) × (s.Idx → Ideal .f32))) concatenates_S640000x128_S640000x128_S640000x128_S640000x384_d1 (ix2 e (Cert.Spec.hi r)) 2 (by show (2 : Nat) < 3; omega) S640000x128 ea rfl rfl 256 rfl (ix2 e r)
    (fun b hb => by match b with | ⟨0, _⟩ => rfl | ⟨1, _⟩ => exact absurd rfl hb) (by show 256 + r.val = 256 + r.val; rfl)

/-- The first linear layer at (e, k) is the specification's hidden unit k of edge e. -/
theorem hidden_apply (xs xd ea : FVec Ideal S640000x128 .f32) (W1 : FVec Ideal S384x128 .f32) (b1 : FVec Ideal S128 .f32)
    (e : Fin 640000) (k : Fin 128) :
    hiddenArr xs xd ea W1 b1 (ix2 e k)
      = Cert.Spec.hidden (fun r => xs (ix2 e r)) (fun r => xd (ix2 e r)) (fun r => ea (ix2 e r))
          (fun r k => W1 (ix2 (Cert.Spec.lo r) k)) (fun r k => W1 (ix2 (Cert.Spec.mid r) k)) (fun r k => W1 (ix2 (Cert.Spec.hi r) k))
          (fun k => b1 (ix1 k)) k := by
  unfold hiddenArr
  rw [addf_apply, Cert.LibHostDot.dot_apply dot_S640000x384_S384x128_S640000x128_1_0_0_1_n_n rfl rfl rfl rfl rfl rfl rfl rfl none _ _ e k,
    bias_apply]
  exact Cert.Spec.hidden_of_cat _ _ _ W1 (fun k => b1 (ix1 k)) (fun p => catArr xs xd ea (ix2 e p))
    (cat_lo xs xd ea e) (cat_mid xs xd ea e) (cat_hi xs xd ea e) k

/-- The rectifier acts entry by entry. -/
theorem act_apply (h : FVec Ideal S640000x128 .f32) (i : S640000x128.Idx) : actArr h i = Cert.Spec.act (h i) := by
  unfold actArr Cert.Spec.act
  rw [select_apply, cmpf_apply, mulf_apply, broadcastInDim_scalar_apply, broadcastInDim_scalar_apply]
  rfl

/-- The second linear layer and the residual sum at (e, j). -/
theorem outArr_apply (ea a : FVec Ideal S640000x128 .f32) (W2 : FVec Ideal S128x128 .f32) (b2 : FVec Ideal S128 .f32)
    (e : Fin 640000) (j : Fin 128) :
    outArr ea a W2 b2 (ix2 e j) = ea (ix2 e j) + ((∑ k : Fin 128, a (ix2 e k) * W2 (ix2 k j)) + b2 (ix1 j)) := by
  unfold outArr
  rw [addf_apply, addf_apply, Cert.LibHostDot.dot_apply dot_S640000x128_S128x128_S640000x128_1_0_0_1_n_n rfl rfl rfl rfl rfl rfl rfl rfl none _ _ e j,
    bias_apply]

/-- Wrapping changes nothing where every index is a natural number below the node count. -/
theorem wrap_eq (idx : IVec S640000 32) (h : ∀ r, (idx r).toNat < 40000) : wrapIdx idx = idx :=
  Cert.LibTake.wrap_id (N := 40000) (by decide) idx h bcast_S_S640000 bcast_S_S640000

/-- Each entry of an index row is an entry of the edge-index array. -/
theorem src_lt (ei : IVec S2x640000 32) (h : ∀ i, (ei i).toNat < 40000) (r : S640000.Idx) : (srcOf ei r).toNat < 40000 := by
  obtain ⟨k, hk⟩ : ∃ k, srcOf ei r = ei k := ⟨_, rfl⟩
  rw [hk]; exact h k

theorem dst_lt (ei : IVec S2x640000 32) (h : ∀ i, (ei i).toNat < 40000) (r : S640000.Idx) : (dstOf ei r).toNat < 40000 := by
  obtain ⟨k, hk⟩ : ∃ k, dstOf ei r = ei k := ⟨_, rfl⟩
  rw [hk]; exact h k

/-- The reference's result is the specification of the plain gathers at the two index rows. -/
theorem out_eq_G (x : FVec Ideal S40000x128 .f32) (ei : IVec S2x640000 32) (ea : FVec Ideal S640000x128 .f32)
    (W1 : FVec Ideal S384x128 .f32) (b1 : FVec Ideal S128 .f32) (W2 : FVec Ideal S128x128 .f32) (b2 : FVec Ideal S128 .f32)
    (h : ∀ i, (ei i).toNat < 40000) :
    out x ei ea W1 b1 W2 b2
      = Cert.Spec.G (rowsAt x (srcOf ei)) (rowsAt x (dstOf ei)) ea W1 (fun k => b1 (ix1 k)) W2 (fun j => b2 (ix1 j)) := by
  funext i
  obtain ⟨e, j, rfl⟩ : ∃ (e : Fin 640000) (j : Fin 128), i = ix2 e j := ⟨i 0, i 1, eq_ix2 i⟩
  unfold out
  rw [wrap_eq _ (src_lt ei h), wrap_eq _ (dst_lt ei h), outArr_apply, Cert.Spec.G_ix2]
  unfold Cert.Spec.rowOut
  congr 1
  congr 1
  refine Finset.sum_congr rfl fun k _ => ?_
  rw [act_apply, hidden_apply]

end Cert.ReferenceIdeal.RefValue

end
-- ==== Proof.PreRead.lean ====
/-
  The index range out of the precondition.

  The precondition's last conjunct says that every entry of the edge-index array, read as a signed word, is at least
  0 and below 40000. A signed word that is at least 0 is its own natural number, so every entry is a natural number
  below 40000: a valid row of the node table.
-/
import proofs.«417948_j73667279061346_2_alg».proof.Pre_finite_inputs
import Idealize.ShloMosaic.PureOps.Ideal
import Idealize.ShloMosaic.Lib.ValueIdx
import Idealize.ShloMosaic.Lib.ReduceAll
import Idealize.ShloMosaic.Lib.Affine

noncomputable section

namespace Cert.PreRead

open Idealize.ShloMosaic

/-- A word that is at least 0 and below 40000 as a signed integer is a natural number below 40000. -/
theorem toNat_lt_of_signed (x : BitVec 32) (h0 : IntOp.cmpi .sge x 0#32 = 1#1) (h1 : IntOp.cmpi .slt x 40000#32 = 1#1) :
    x.toNat < 40000 := by
  rw [IntOp.cmpi_sge] at h0
  rw [IntOp.cmpi_slt] at h1
  have e := BitVec.toInt_eq_toNat_cond x
  have z : (0#32 : BitVec 32).toInt = 0 := by decide
  have k : (40000#32 : BitVec 32).toInt = 40000 := by decide
  rw [z] at h0
  rw [k] at h1
  split at e <;> omega

instance : Subsingleton Cert.Pre_finite_inputs.S_.Idx := ⟨fun _ _ => funext fun d => d.elim0⟩

variable [Cert.Pre_finite_inputs.Facts]

/-- Under the precondition every edge index is a natural number below the node count. -/
theorem index_lt (a0 : FVec Ideal Cert.Pre_finite_inputs.S40000x128 .f32) (a1 : IVec Cert.Pre_finite_inputs.S2x640000 32)
    (a2 : FVec Ideal Cert.Pre_finite_inputs.S640000x128 .f32) (a3 : FVec Ideal Cert.Pre_finite_inputs.S384x128 .f32)
    (a4 : FVec Ideal Cert.Pre_finite_inputs.S128 .f32) (a5 : FVec Ideal Cert.Pre_finite_inputs.S128x128 .f32)
    (a6 : FVec Ideal Cert.Pre_finite_inputs.S128 .f32)
    (h : Cert.Pre_finite_inputs.fn (F := Ideal) a0 a1 a2 a3 a4 a5 a6 = fun _ => 1#1)
    (i : Cert.Pre_finite_inputs.S2x640000.Idx) : (a1 i).toNat < 40000 := by
  have h' := congrFun h ValueIdx.ix0
  dsimp only [Cert.Pre_finite_inputs.fn, Cert.Pre_finite_inputs.fn_part1, Cert.Pre_finite_inputs.fn_part2] at h'
  have h2 := (IntOp.andi_eq_one.mp h').2
  have h3 := Host.reduce_andi_all _ _ _ _ _ h2 i
  have h4 := IntOp.andi_eq_one.mp h3
  exact toNat_lt_of_signed _ h4.1 h4.2

end Cert.PreRead

end
-- ==== Proof.lean ====
/-
  An edge layer of a graph network: for each of 640000 edges, the rows of the node table at the edge's two endpoints
  and the edge's attribute row pass through a linear layer (384 → 128), a leaky rectifier and a second linear layer
  (128 → 128), and the result is added to the attribute row.

  The kernel gathers the endpoint rows before its one pipelined region, which then handles 5120 edges per grid
  point and takes the first product as three 128-row products; the reference concatenates the three rows and takes
  one 384-row product. On extended reals a 384-term sum is the sum of its three stretches, every change of float
  format is the identity and each matrix product is its plain sum, so the two results agree entry by entry.

  The kernel's gather replaces a row whose index lies outside the node table by a not-a-number fill, while the
  reference's clamps the index; the two agree where every edge index is a valid row, 0 ≤ index < 40000, which the
  precondition states. No finiteness of the float inputs is used.
-/
import proofs.«417948_j73667279061346_2_alg».proof.Defs
import proofs.«417948_j73667279061346_2_alg».proof.Proof.Gen.Kernel
import proofs.«417948_j73667279061346_2_alg».proof.Proof.Gen.Kernel.Skeleton
import proofs.«417948_j73667279061346_2_alg».proof.Proof.Gen.Kernel.Launch
import proofs.«417948_j73667279061346_2_alg».proof.Proof.Gen.Kernel.Points
import proofs.«417948_j73667279061346_2_alg».proof.Proof.Gen.Kernel.Frame
import proofs.«417948_j73667279061346_2_alg».proof.Proof.Gen.KernelIdeal
import proofs.«417948_j73667279061346_2_alg».proof.Proof.Gen.KernelIdeal.Skeleton
import proofs.«417948_j73667279061346_2_alg».proof.Proof.Gen.KernelIdeal.Launch
import proofs.«417948_j73667279061346_2_alg».proof.Proof.Gen.KernelIdeal.Points
import proofs.«417948_j73667279061346_2_alg».proof.Proof.Gen.KernelIdeal.Frame
import proofs.«417948_j73667279061346_2_alg».proof.Proof.Gen.KernelIdeal.Value
import proofs.«417948_j73667279061346_2_alg».proof.Proof.Gen.ReferenceIdeal
import proofs.«417948_j73667279061346_2_alg».proof.Proof.Gen.Pre_finite_inputs
import proofs.«417948_j73667279061346_2_alg».proof.Proof.KernelValue
import proofs.«417948_j73667279061346_2_alg».proof.Proof.RefValue
import proofs.«417948_j73667279061346_2_alg».proof.Proof.PreRead
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs name the same gathered rows: their index rows and gather records are the same text. -/
theorem rows_src (x : FVec Ideal Cert.KernelIdeal.S40000x128 .f32) (ei : IVec Cert.KernelIdeal.S2x640000 32) :
    Cert.ReferenceIdeal.RefOut.rowsAt x (Cert.ReferenceIdeal.RefOut.srcOf ei)
      = Cert.KernelIdeal.Entry.rowsAt x (Cert.KernelIdeal.Entry.srcOf ei) := rfl

theorem rows_dst (x : FVec Ideal Cert.KernelIdeal.S40000x128 .f32) (ei : IVec Cert.KernelIdeal.S2x640000 32) :
    Cert.ReferenceIdeal.RefOut.rowsAt x (Cert.ReferenceIdeal.RefOut.dstOf ei)
      = Cert.KernelIdeal.Entry.rowsAt x (Cert.KernelIdeal.Entry.dstOf ei) := rfl

/-- The kernel at the word level runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefOut.run (F := Ideal) m ρ)

/-- Under the precondition every edge index of the kernel's memory is a natural number below the node count. -/
theorem index_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x640000.Idx) :
    ((m ((c : Thread Cert.KernelIdeal.nD Cert.KernelIdeal.τ).loc Cert.KernelIdeal.main_arg1) : IVec Cert.KernelIdeal.S2x640000 32) i).toNat < 40000 :=
  Cert.PreRead.index_lt _ _ _ _ _ _ _ (hpre c) i

/-- From memories agreeing on the arguments both programs end with the same result: the specification of the plain
    gathers at the two index rows, of the attribute array and of the weights and biases. -/
theorem algebraic : Cert.algebraic_KernelIdeal_ReferenceIdeal := by
  intro m ρ m' ρ' hpre hagree
  refine ⟨_, Cert.KernelIdeal.Hand.run m ρ (index_lt m hpre), ?_⟩
  refine (θ_run Cert.ReferenceIdeal.defs _ _).mono (fun _ h c => ⟨(h c).1.trans ?_, (h c).2⟩)
    (Cert.ReferenceIdeal.RefOut.run (F := Ideal) m' ρ')
  obtain ⟨a0, a1, a2, a3, a4, a5, a6⟩ := hagree c
  rw [a0, a1, a2, a3, a4, a5, a6, Cert.ReferenceIdeal.RefValue.out_eq_G _ _ _ _ _ _ _ (index_lt m hpre c), rows_src, rows_dst]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
